-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩

abbrev nBuf : Space → Nat
  | .hbm => 46
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S1x128, .f32⟩
  | .hbm, ⟨28, _⟩ => ⟨S1x128, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The two GIN layers as functions of whole arrays, index by index, over the extended reals.

  A layer takes a node's aggregated neighbour features plus its own, `z = agg + h` (one row), and applies a
  two-layer perceptron: `hidden k₂ = max (∑ k₁, z k₁ · Wa k₁ k₂ + ba k₂) 0` and
  `out q = ∑ k₂, hidden k₂ · Wb k₂ q + bb q`. Layer 1 (64 input channels) clamps its output at zero as well;
  layer 2 (128 input channels) does not. Row `r` of the result depends on row `r` of `agg` and `h` only, which is what
  lets a kernel compute it tile of rows by tile of rows.
-/
import Idealize.ShloMosaic.Lib.ValueIdx
import Idealize.ShloMosaic.PureOps.Ideal.Laws

noncomputable section

namespace Cert.Gin

open Idealize.ShloMosaic Idealize.ShloMosaic.ValueIdx
open scoped BigOperators

/-- The hidden activations of one node: the clamped affine image of its row `z`. -/
def hiddenAct {K : Nat} (z : Fin K → EReal) (Wa : Fin K → Fin 128 → EReal) (ba : Fin 128 → EReal) (k₂ : Fin 128) : EReal :=
  max ((∑ k₁ : Fin K, z k₁ * Wa k₁ k₂) + ba k₂) 0

/-- The perceptron's output for one node at output channel `q`. -/
def mlpOut {K : Nat} (z : Fin K → EReal) (Wa : Fin K → Fin 128 → EReal) (ba : Fin 128 → EReal)
    (Wb : Fin 128 → Fin 128 → EReal) (bb : Fin 128 → EReal) (q : Fin 128) : EReal :=
  (∑ k₂ : Fin 128, hiddenAct z Wa ba k₂ * Wb k₂ q) + bb q

/-- Layer 1 on whole arrays: 50000 nodes, 64 input channels, the output clamped at zero. -/
def layer1 (agg x : Vec Ideal ⟨2, ![50000, 64]⟩ .f32) (Wa : Vec Ideal ⟨2, ![64, 128]⟩ .f32) (ba : Vec Ideal ⟨1, ![128]⟩ .f32)
    (Wb : Vec Ideal ⟨2, ![128, 128]⟩ .f32) (bb : Vec Ideal ⟨1, ![128]⟩ .f32) : Vec Ideal ⟨2, ![50000, 128]⟩ .f32 :=
  fun i => max (mlpOut (fun k => (agg (ix2 (i 0) k) : EReal) + x (ix2 (i 0) k)) (fun k₁ k₂ => Wa (ix2 k₁ k₂)) (fun k => ba (ix1 k))
    (fun k₂ q => Wb (ix2 k₂ q)) (fun q => bb (ix1 q)) (i 1)) 0

/-- Layer 2 on whole arrays: 50000 nodes, 128 input channels, no final clamp. -/
def layer2 (agg h : Vec Ideal ⟨2, ![50000, 128]⟩ .f32) (Wa : Vec Ideal ⟨2, ![128, 128]⟩ .f32) (ba : Vec Ideal ⟨1, ![128]⟩ .f32)
    (Wb : Vec Ideal ⟨2, ![128, 128]⟩ .f32) (bb : Vec Ideal ⟨1, ![128]⟩ .f32) : Vec Ideal ⟨2, ![50000, 128]⟩ .f32 :=
  fun i => mlpOut (fun k => (agg (ix2 (i 0) k) : EReal) + h (ix2 (i 0) k)) (fun k₁ k₂ => Wa (ix2 k₁ k₂)) (fun k => ba (ix1 k))
    (fun k₂ q => Wb (ix2 k₂ q)) (fun q => bb (ix1 q)) (i 1)

end Cert.Gin

end
-- ==== Proof.KernelPayload.lean ====
/-
  What one grid step of each kernel stores, read at an entry of its 5000-row tile.

  Both kernels add the tile of aggregated features to the tile of node features, multiply by the first weight
  matrix on the matrix unit (into a zero accumulator, after a change of float format that is the identity on the
  extended reals), add the first bias row, clamp at zero, multiply by the second weight matrix, add the second bias
  row; the first kernel clamps once more. At row `p`, column `q` of the tile that is the perceptron of row `p` of
  the two input tiles (`Cert.Gin.mlpOut`), the bias rows read at their one row.
-/
import proofs.«105475_j18940805775883_1_alg».proof.Proof.Gen.KernelIdeal.Skeleton
import proofs.«105475_j18940805775883_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Gin
open scoped BigOperators

/-! ## The two matrix products of a tile, at an entry -/

theorem lhs_first_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_first_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_first_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_first_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The tile's matrix product into a zero accumulator, read at row `p` and column `q`: the sum over the 64 contracted
    channels of the left operand's row `p` times the right operand's column `q`. -/
theorem matmul_first_apply {φ₁ φ₂ : FTy} (l : FVec Ideal S5000x64 φ₁) (r : FVec Ideal S64x128 φ₂) (p : Fin 5000) (q : Fin 128) :
    FloatOps.matmul dot_S5000x64_S64x128_S5000x128_1_0_0_1_n_n none l r (constant S5000x128 .f32 0x00000000#32) (ix2 p q)
      = ∑ k : Fin 64, l (ix2 p k) * r (ix2 k q) := by
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_first_0 _ _
    | ⟨1, _⟩ => exact (lhs_first_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_first_0 _ _).trans hk
    | ⟨1, _⟩ => exact rhs_first_1 _ _)
  rw [el, er]

theorem lhs_second_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_second_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_second_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_second_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's matrix product into a zero accumulator, read at row `p` and column `q`: the sum over the 128 contracted
    channels of the left operand's row `p` times the right operand's column `q`. -/
theorem matmul_second_apply {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_second_0 _ _
    | ⟨1, _⟩ => exact (lhs_second_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_second_0 _ _).trans hk
    | ⟨1, _⟩ => exact rhs_second_1 _ _)
  rw [el, er]

/-! ## The stored tiles, at an entry -/

/-- A bias row `[1, 128]` spread over the tile's 5000 rows reads its one row. -/
theorem bias_apply (b : Vec Ideal S1x128 .f32) (p : Fin 5000) (q : Fin 128) :
    broadcastTo S5000x128 (shapeCast S1x128 b shapeCasts_S1x128_S1x128) broadcasts_S1x128_S5000x128 (ix2 p q) = b (ix2 (0 : Fin 1) q) := by
  rw [broadcastTo_1b_ab_apply, shapeCast_self]

/-- Layer 1's tile at `(p, q)`: the perceptron of row `p` of the summed input tiles, clamped at zero. -/
theorem pay0_apply (x0 x1 : Vec Ideal S5000x64 .f32) (x2 : Vec Ideal S64x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = max (mlpOut (fun k => (x0 (ix2 p k) : EReal) + x1 (ix2 p k)) (fun k₁ k₂ => x2 (ix2 k₁ k₂)) (fun k => x3 (ix2 (0 : Fin 1) k))
          (fun k₂ q => x4 (ix2 k₂ q)) (fun q => x5 (ix2 (0 : Fin 1) q)) q) 0 := by
  unfold k0_pay1
  simp only [matmul, maximumf_apply, addf_apply, truncf_apply, bias_apply, broadcastTo_1b_ab_apply, matmul_first_apply, matmul_second_apply,
    shapeCast_self, broadcast_apply, Ideal.ofBits_def, Ideal.ofBits_zero_f32, mlpOut, hiddenAct]

/-- Layer 2's tile at `(p, q)`: the perceptron of row `p` of the summed input tiles. -/
theorem pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = mlpOut (fun k => (x0 (ix2 p k) : EReal) + x1 (ix2 p k)) (fun k₁ k₂ => x2 (ix2 k₁ k₂)) (fun k => x3 (ix2 (0 : Fin 1) k))
          (fun k₂ q => x4 (ix2 k₂ q)) (fun q => x5 (ix2 (0 : Fin 1) q)) q := by
  unfold k1_pay1
  simp only [matmul, maximumf_apply, addf_apply, truncf_apply, bias_apply, broadcastTo_1b_ab_apply, matmul_second_apply,
    shapeCast_self, broadcast_apply, Ideal.ofBits_def, Ideal.ofBits_zero_f32, mlpOut, hiddenAct]

end Cert.KernelIdeal.Payload

end
-- ==== Proof.Region0.lean ====
/-
  The first region's output array, as one function of the arrays the region finds.

  The region walks the 50000 nodes in ten tiles of 5000 rows. At step `t` it reads rows `5000 t … 5000 t + 4999` of the
  aggregate and of the node features, the two weight matrices and the two bias rows whole, and writes the same rows of
  the output. So entry `(p, q)` of the tile written at step `t` is entry `(5000 t + p, q)` of layer 1 of the whole arrays,
  the ten tiles cover every row, and the output array ends as layer 1 of the arrays.
-/
import proofs.«105475_j18940805775883_1_alg».proof.Proof.Gen.KernelIdeal.Frame
import proofs.«105475_j18940805775883_1_alg».proof.Proof.KernelPayload
import Idealize.ShloMosaic.Lib.Pipeline.Value

set_option maxRecDepth 16384

noncomputable section

namespace Cert.KernelIdeal.Region0

open Cert.KernelIdeal Cert.KernelIdeal.Gen Cert.KernelIdeal.Payload Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A tile's origin is the zero offset. -/
theorem hz : (![0, 0] : Fin 2 → Nat) = fun _ => 0 := funext fun a => by fin_cases a <;> rfl

/-- A bias kept as a `[1, 128]` array, read as the vector of its one row. -/
def rowOf (b : Vec Ideal S1x128 .f32) : Vec Ideal ⟨1, ![128]⟩ .f32 := fun j => b (ix2 (0 : Fin 1) (j 0))

abbrev aggArr (c : Dev nD) : Vec Ideal S50000x64 .f32 := V c main_v13
abbrev xArr (c : Dev nD) : Vec Ideal S50000x64 .f32 := V c main_arg0
abbrev waArr (c : Dev nD) : Vec Ideal S64x128 .f32 := V c main_arg2
abbrev baArr (c : Dev nD) : Vec Ideal S1x128 .f32 := V c main_v14
abbrev wbArr (c : Dev nD) : Vec Ideal S128x128 .f32 := V c main_arg4
abbrev bbArr (c : Dev nD) : Vec Ideal S1x128 .f32 := V c main_v15

/-- Layer 1 of the arrays the first region finds. -/
def G (c : Dev nD) : Vec Ideal S50000x128 .f32 :=
  layer1 (aggArr V c) (xArr V c) (waArr V c) (rowOf (baArr V c)) (wbArr V c) (rowOf (bbArr V c))

/-- The tiles' block indices at step `t`: the row tiles move with `t`, everything else stays at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A stored tile is the matching rows of layer 1: stated over plain arrays and tiles, the tile's row `j 0` being the
    array's row `i 0`, the column the same, the weights and biases whole. -/
theorem tile_eq (A X : Vec Ideal S50000x64 .f32) (Wa : Vec Ideal S64x128 .f32) (ba : Vec Ideal S1x128 .f32) (Wb : Vec Ideal S128x128 .f32)
    (bb : Vec Ideal S1x128 .f32) (x0 x1 : Vec Ideal S5000x64 .f32) (x2 : Vec Ideal S64x128 .f32) (x3 : Vec Ideal S1x128 .f32)
    (x4 : Vec Ideal S128x128 .f32) (x5 : Vec Ideal S1x128 .f32) (j : S5000x128.Idx) (i : S50000x128.Idx)
    (h0 : ∀ k : Fin 64, x0 (ix2 (j 0) k) = A (ix2 (i 0) k)) (h1 : ∀ k : Fin 64, x1 (ix2 (j 0) k) = X (ix2 (i 0) k))
    (h2 : x2 = Wa) (h3 : x3 = ba) (h4 : x4 = Wb) (h5 : x5 = bb) (hq : j 1 = i 1) :
    k0_pay1 (F := Ideal) x0 x1 x2 x3 x4 x5 j = layer1 A X Wa (rowOf ba) Wb (rowOf bb) i := by
  subst h2 h3 h4 h5
  obtain ⟨p, q, rfl⟩ : ∃ (p : Fin 5000) (q : Fin 128), j = ix2 p q := ⟨j 0, j 1, eq_ix2 j⟩
  rw [pay0_apply]
  unfold layer1 rowOf
  have hq' : q = i 1 := hq
  subst hq'
  have e : (fun k : Fin 64 => (x0 (ix2 p k) : EReal) + x1 (ix2 p k)) = fun k => (A (ix2 (i 0) k) : EReal) + X (ix2 (i 0) k) :=
    funext fun k => by rw [h0 k, h1 k]
  rw [e]

/-- What step `t` writes back is tile `t` of layer 1 of the arrays the region finds. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x128) hz, View.ld_unit_zero (S := S1x128) hz, View.ld_unit_zero (S := S128x128) hz]
  funext j
  obtain ⟨e00, e01, e10, e11, e20, e21, e30, e31, e40, e41, e50, e51, e60, e61⟩ := idx_facts t
  show k0_pay1 (F := Ideal) (iblk0 V c 0 t) (iblk0 V c 1 t) (iblk0 V c 2 t) (iblk0 V c 3 t) (iblk0 V c 4 t) (iblk0 V c 5 t) j
    = G V c (((cfg0.win 6).blk t).view.emb j)
  unfold G
  refine tile_eq (aggArr V c) (xArr V c) (waArr V c) (baArr V c) (wbArr V c) (bbArr V c)
    (iblk0 V c 0 t) (iblk0 V c 1 t) (iblk0 V c 2 t) (iblk0 V c 3 t) (iblk0 V c 4 t) (iblk0 V c 5 t) j (((cfg0.win 6).blk t).view.emb j)
    (fun k => ?_) (fun k => ?_) ?_ ?_ ?_ ?_ ?_
  · show V c main_v13 (((cfg0.win 0).blk t).view.emb (ix2 (j 0) k)) = V c main_v13 (ix2 ((((cfg0.win 6).blk t).view.emb j) 0) k)
    refine congrArg (V c main_v13) (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 64 + 1 * k.val = k.val; omega
  · show V c main_arg0 (((cfg0.win 1).blk t).view.emb (ix2 (j 0) k)) = V c main_arg0 (ix2 ((((cfg0.win 6).blk t).view.emb j) 0) k)
    refine congrArg (V c main_arg0) (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 64 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; omega
    | ⟨1, _⟩ => show win0_2.index t (1 : Fin 2) * 128 + 1 * (y 1).val = (y 1).val; omega
  · funext y
    show V c main_v14 (((cfg0.win 3).blk t).view.emb y) = V c main_v14 y
    refine congrArg (V c main_v14) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v15 (((cfg0.win 5).blk t).view.emb y) = V c main_v15 y
    refine congrArg (V c main_v15) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  · refine Fin.ext ?_
    show (j 1).val = win0_6.index t (1 : Fin 2) * 128 + 1 * (j 1).val; omega

/-- An entry is in step `t`'s tile iff each coordinate is in the tile's range. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- Row `r` lies in the tile of step `r / 5000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_6 _, ?_⟩
  rw [mem_blk]
  obtain ⟨-, -, -, -, -, -, -, -, -, -, -, -, e60, e61⟩ := idx_facts ⟨(i 0).val / 5000, by rw [hN]; omega⟩
  intro a
  match a with
  | ⟨0, _⟩ => show win0_6.index _ (0 : Fin 2) * 5000 ≤ (i 0).val ∧ (i 0).val < win0_6.index _ (0 : Fin 2) * 5000 + 5000; rw [e60]; show (i 0).val / 5000 * 5000 ≤ (i 0).val ∧ (i 0).val < (i 0).val / 5000 * 5000 + 5000; omega
  | ⟨1, _⟩ => show win0_6.index _ (1 : Fin 2) * 128 ≤ (i 1).val ∧ (i 1).val < win0_6.index _ (1 : Fin 2) * 128 + 128; rw [e61]; omega

/-- After the first region its output array is layer 1 of the arrays it found. -/
theorem final (c : Dev nD) : (dat0 V c).arrAt 6 cfg0.N = G V c :=
  (dat0 V c).arrAt_eq_of_cover 6 (G V c) (fun t _ => flushed_eq V c t) cover

end Cert.KernelIdeal.Region0

end
-- ==== Proof.Region1.lean ====
/-
  The second region's output array, as one function of the arrays the region finds.

  The region walks the 50000 nodes in ten tiles of 5000 rows. At step `t` it reads rows `5000 t … 5000 t + 4999` of the
  aggregate and of the node features, the two weight matrices and the two bias rows whole, and writes the same rows of
  the output. So entry `(p, q)` of the tile written at step `t` is entry `(5000 t + p, q)` of layer 2 of the whole arrays,
  the ten tiles cover every row, and the output array ends as layer 2 of the arrays.
-/
import proofs.«105475_j18940805775883_1_alg».proof.Proof.Gen.KernelIdeal.Frame
import proofs.«105475_j18940805775883_1_alg».proof.Proof.KernelPayload
import Idealize.ShloMosaic.Lib.Pipeline.Value

set_option maxRecDepth 16384

noncomputable section

namespace Cert.KernelIdeal.Region1

open Cert.KernelIdeal Cert.KernelIdeal.Gen Cert.KernelIdeal.Payload Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A tile's origin is the zero offset. -/
theorem hz : (![0, 0] : Fin 2 → Nat) = fun _ => 0 := funext fun a => by fin_cases a <;> rfl

/-- A bias kept as a `[1, 128]` array, read as the vector of its one row. -/
def rowOf (b : Vec Ideal S1x128 .f32) : Vec Ideal ⟨1, ![128]⟩ .f32 := fun j => b (ix2 (0 : Fin 1) (j 0))

abbrev aggArr (c : Dev nD) : Vec Ideal S50000x128 .f32 := V c main_v26
abbrev xArr (c : Dev nD) : Vec Ideal S50000x128 .f32 := V c main_v16
abbrev waArr (c : Dev nD) : Vec Ideal S128x128 .f32 := V c main_arg6
abbrev baArr (c : Dev nD) : Vec Ideal S1x128 .f32 := V c main_v27
abbrev wbArr (c : Dev nD) : Vec Ideal S128x128 .f32 := V c main_arg8
abbrev bbArr (c : Dev nD) : Vec Ideal S1x128 .f32 := V c main_v28

/-- Layer 1 of the arrays the second region finds. -/
def G (c : Dev nD) : Vec Ideal S50000x128 .f32 :=
  layer2 (aggArr V c) (xArr V c) (waArr V c) (rowOf (baArr V c)) (wbArr V c) (rowOf (bbArr V c))

/-- The tiles' block indices at step `t`: the row tiles move with `t`, everything else stays at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A stored tile is the matching rows of layer 2: stated over plain arrays and tiles, the tile's row `j 0` being the
    array's row `i 0`, the column the same, the weights and biases whole. -/
theorem tile_eq (A X : Vec Ideal S50000x128 .f32) (Wa : Vec Ideal S128x128 .f32) (ba : Vec Ideal S1x128 .f32) (Wb : Vec Ideal S128x128 .f32)
    (bb : Vec Ideal S1x128 .f32) (x0 x1 : Vec Ideal S5000x128 .f32) (x2 : Vec Ideal S128x128 .f32) (x3 : Vec Ideal S1x128 .f32)
    (x4 : Vec Ideal S128x128 .f32) (x5 : Vec Ideal S1x128 .f32) (j : S5000x128.Idx) (i : S50000x128.Idx)
    (h0 : ∀ k : Fin 128, x0 (ix2 (j 0) k) = A (ix2 (i 0) k)) (h1 : ∀ k : Fin 128, x1 (ix2 (j 0) k) = X (ix2 (i 0) k))
    (h2 : x2 = Wa) (h3 : x3 = ba) (h4 : x4 = Wb) (h5 : x5 = bb) (hq : j 1 = i 1) :
    k1_pay1 (F := Ideal) x0 x1 x2 x3 x4 x5 j = layer2 A X Wa (rowOf ba) Wb (rowOf bb) i := by
  subst h2 h3 h4 h5
  obtain ⟨p, q, rfl⟩ : ∃ (p : Fin 5000) (q : Fin 128), j = ix2 p q := ⟨j 0, j 1, eq_ix2 j⟩
  rw [pay1_apply]
  unfold layer2 rowOf
  have hq' : q = i 1 := hq
  subst hq'
  have e : (fun k : Fin 128 => (x0 (ix2 p k) : EReal) + x1 (ix2 p k)) = fun k => (A (ix2 (i 0) k) : EReal) + X (ix2 (i 0) k) :=
    funext fun k => by rw [h0 k, h1 k]
  rw [e]

/-- What step `t` writes back is tile `t` of layer 2 of the arrays the region finds. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz, View.ld_unit_zero (S := S128x128) hz]
  funext j
  obtain ⟨e00, e01, e10, e11, e20, e21, e30, e31, e40, e41, e50, e51, e60, e61⟩ := idx_facts t
  show k1_pay1 (F := Ideal) (iblk1 V c 0 t) (iblk1 V c 1 t) (iblk1 V c 2 t) (iblk1 V c 3 t) (iblk1 V c 4 t) (iblk1 V c 5 t) j
    = G V c (((cfg1.win 6).blk t).view.emb j)
  unfold G
  refine tile_eq (aggArr V c) (xArr V c) (waArr V c) (baArr V c) (wbArr V c) (bbArr V c)
    (iblk1 V c 0 t) (iblk1 V c 1 t) (iblk1 V c 2 t) (iblk1 V c 3 t) (iblk1 V c 4 t) (iblk1 V c 5 t) j (((cfg1.win 6).blk t).view.emb j)
    (fun k => ?_) (fun k => ?_) ?_ ?_ ?_ ?_ ?_
  · show V c main_v26 (((cfg1.win 0).blk t).view.emb (ix2 (j 0) k)) = V c main_v26 (ix2 ((((cfg1.win 6).blk t).view.emb j) 0) k)
    refine congrArg (V c main_v26) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * k.val = k.val; omega
  · show V c main_v16 (((cfg1.win 1).blk t).view.emb (ix2 (j 0) k)) = V c main_v16 (ix2 ((((cfg1.win 6).blk t).view.emb j) 0) k)
    refine congrArg (V c main_v16) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 128 + 1 * k.val = k.val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v27 (((cfg1.win 3).blk t).view.emb y) = V c main_v27 y
    refine congrArg (V c main_v27) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_arg8 (((cfg1.win 4).blk t).view.emb y) = V c main_arg8 y
    refine congrArg (V c main_arg8) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v28 (((cfg1.win 5).blk t).view.emb y) = V c main_v28 y
    refine congrArg (V c main_v28) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  · refine Fin.ext ?_
    show (j 1).val = win1_6.index t (1 : Fin 2) * 128 + 1 * (j 1).val; omega

/-- An entry is in step `t`'s tile iff each coordinate is in the tile's range. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- Row `r` lies in the tile of step `r / 5000`. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_6 _, ?_⟩
  rw [mem_blk]
  obtain ⟨-, -, -, -, -, -, -, -, -, -, -, -, e60, e61⟩ := idx_facts ⟨(i 0).val / 5000, by rw [hN]; omega⟩
  intro a
  match a with
  | ⟨0, _⟩ => show win1_6.index _ (0 : Fin 2) * 5000 ≤ (i 0).val ∧ (i 0).val < win1_6.index _ (0 : Fin 2) * 5000 + 5000; rw [e60]; show (i 0).val / 5000 * 5000 ≤ (i 0).val ∧ (i 0).val < (i 0).val / 5000 * 5000 + 5000; omega
  | ⟨1, _⟩ => show win1_6.index _ (1 : Fin 2) * 128 ≤ (i 1).val ∧ (i 1).val < win1_6.index _ (1 : Fin 2) * 128 + 128; rw [e61]; omega

/-- After the second region its output array is layer 2 of the arrays it found. -/
theorem final (c : Dev nD) : (dat1 V c).arrAt 6 cfg1.N = G V c :=
  (dat1 V c).arrAt_eq_of_cover 6 (G V c) (fun t _ => flushed_eq V c t) cover

end Cert.KernelIdeal.Region1

end
-- ==== Proof.KernelFold.lean ====
/-
  The kernel's result, read back through the run to the launch contents of the arguments.

  @main is: host operations that build the 64-channel neighbour aggregate of `x` and reshape two biases; the first
  region (layer 1); host operations that build the 128-channel aggregate of the first region's output and reshape the
  other two biases; the second region (layer 2). Each region's output array ends as its layer of the arrays it finds
  (`Region0.final`, `Region1.final`); a host stretch's results are its operations applied to what it finds; nothing
  writes an argument. Chained, the result is `layer2 (agg₁₂₈ H) H …` with `H = layer1 (agg₆₄ x) x …`.

  An aggregate is carried as one function of the feature array and the two index vectors (sources, targets) cut out of
  the edge list, and is never opened.
-/
import proofs.«105475_j18940805775883_1_alg».proof.Proof.Gen.KernelIdeal.Frame
import proofs.«105475_j18940805775883_1_alg».proof.Proof.Region0
import proofs.«105475_j18940805775883_1_alg».proof.Proof.Region1
import Idealize.ShloMosaic.Lib.StableHlo.Run
import Idealize.ShloMosaic.Lib.ValueLayout

set_option maxRecDepth 16384

noncomputable section

namespace Cert.KernelIdeal.Fold

open Cert.KernelIdeal Cert.KernelIdeal.Gen Cert.Gin
open Idealize.ShloMosaic Idealize.ShloMosaic.TcCoe Idealize.ShloMosaic.ValueIdx Idealize.SL.Sem Idealize.ShloMosaic.StableHlo

/-! ## The aggregates, as functions -/

/-- The edge list's first row: the source node of each edge. -/
def srcIds (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000
/-- The edge list's second row: the target node of each edge. -/
def dstIds (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- Sources with a negative index wrapped by the node count, as a column of start indices. -/
def srcColumn (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The sum over incoming edges of the 64-channel source rows, one row per target node. -/
def agg64 (x : (⟨S50000x64, .f32⟩ : BufTy).Contents (Elt Ideal)) (src dst : (⟨S800000, .i32⟩ : BufTy).Contents (Elt Ideal)) : (⟨S50000x64, .f32⟩ : BufTy).Contents (Elt Ideal) :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x (srcColumn src))

/-- The same for 128-channel rows. -/
def agg128 (h : (⟨S50000x128, .f32⟩ : BufTy).Contents (Elt Ideal)) (src dst : (⟨S800000, .i32⟩ : BufTy).Contents (Elt Ideal)) : (⟨S50000x128, .f32⟩ : BufTy).Contents (Elt Ideal) :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h (srcColumn src))

variable (m : (ℓ : Loc nD τ sig) → Buf (Elt Ideal) ℓ) (ρ : Dev nD → PrngReg)

/-! ## What the first region finds -/

theorem W1_v13 (c : Dev nD) : W1 m ρ c (Proc.devRef .tc main_v13)
    = agg64 (m ((c : Thread nD τ).loc main_arg0)) (srcIds (m ((c : Thread nD τ).loc main_arg1))) (dstIds (m ((c : Thread nD τ).loc main_arg1))) := by
  show StableHlo.after hostOps0 (W0 m ρ c) (Proc.devRef .tc main_v13) = _
  after_results
  rfl

theorem W1_v1 (c : Dev nD) : W1 m ρ c (Proc.devRef .tc main_v1) = srcIds (m ((c : Thread nD τ).loc main_arg1)) := by
  show StableHlo.after hostOps0 (W0 m ρ c) (Proc.devRef .tc main_v1) = _
  after_results
  rfl
theorem W1_v3 (c : Dev nD) : W1 m ρ c (Proc.devRef .tc main_v3) = dstIds (m ((c : Thread nD τ).loc main_arg1)) := by
  show StableHlo.after hostOps0 (W0 m ρ c) (Proc.devRef .tc main_v3) = _
  after_results
  rfl
theorem W1_v14 (c : Dev nD) : W1 m ρ c (Proc.devRef .tc main_v14) = shapeCast _ (m ((c : Thread nD τ).loc main_arg3)) shapeCasts_S128_S1x128 := by
  show StableHlo.after hostOps0 (W0 m ρ c) (Proc.devRef .tc main_v14) = _
  after_results
  rfl
theorem W1_v15 (c : Dev nD) : W1 m ρ c (Proc.devRef .tc main_v15) = shapeCast _ (m ((c : Thread nD τ).loc main_arg5)) shapeCasts_S128_S1x128 := by
  show StableHlo.after hostOps0 (W0 m ρ c) (Proc.devRef .tc main_v15) = _
  after_results
  rfl
theorem W1_arg0 (c : Dev nD) : W1 m ρ c (Proc.devRef .tc main_arg0) = (m ((c : Thread nD τ).loc main_arg0)) := by
  show StableHlo.after hostOps0 (W0 m ρ c) (Proc.devRef .tc main_arg0) = _
  after_results
theorem W1_arg2 (c : Dev nD) : W1 m ρ c (Proc.devRef .tc main_arg2) = (m ((c : Thread nD τ).loc main_arg2)) := by
  show StableHlo.after hostOps0 (W0 m ρ c) (Proc.devRef .tc main_arg2) = _
  after_results
theorem W1_arg4 (c : Dev nD) : W1 m ρ c (Proc.devRef .tc main_arg4) = (m ((c : Thread nD τ).loc main_arg4)) := by
  show StableHlo.after hostOps0 (W0 m ρ c) (Proc.devRef .tc main_arg4) = _
  after_results
theorem W1_arg6 (c : Dev nD) : W1 m ρ c (Proc.devRef .tc main_arg6) = (m ((c : Thread nD τ).loc main_arg6)) := by
  show StableHlo.after hostOps0 (W0 m ρ c) (Proc.devRef .tc main_arg6) = _
  after_results
theorem W1_arg7 (c : Dev nD) : W1 m ρ c (Proc.devRef .tc main_arg7) = (m ((c : Thread nD τ).loc main_arg7)) := by
  show StableHlo.after hostOps0 (W0 m ρ c) (Proc.devRef .tc main_arg7) = _
  after_results
theorem W1_arg8 (c : Dev nD) : W1 m ρ c (Proc.devRef .tc main_arg8) = (m ((c : Thread nD τ).loc main_arg8)) := by
  show StableHlo.after hostOps0 (W0 m ρ c) (Proc.devRef .tc main_arg8) = _
  after_results
theorem W1_arg9 (c : Dev nD) : W1 m ρ c (Proc.devRef .tc main_arg9) = (m ((c : Thread nD τ).loc main_arg9)) := by
  show StableHlo.after hostOps0 (W0 m ρ c) (Proc.devRef .tc main_arg9) = _
  after_results

/-- A bias vector reshaped to one row and read back as that row's vector is the bias. -/
theorem rowOf0_reshape (b : Vec Ideal S128 .f32) : Region0.rowOf (shapeCast S1x128 b shapeCasts_S128_S1x128) = b := by
  funext j
  obtain ⟨q, rfl⟩ : ∃ q : Fin 128, j = ix1 q := ⟨j 0, eq_ix1 j⟩
  unfold Region0.rowOf
  exact shapeCast_a_1a_apply b shapeCasts_S128_S1x128 (0 : Fin 1) q
theorem rowOf1_reshape (b : Vec Ideal S128 .f32) : Region1.rowOf (shapeCast S1x128 b shapeCasts_S128_S1x128) = b := by
  funext j
  obtain ⟨q, rfl⟩ : ∃ q : Fin 128, j = ix1 q := ⟨j 0, eq_ix1 j⟩
  unfold Region1.rowOf
  exact shapeCast_a_1a_apply b shapeCasts_S128_S1x128 (0 : Fin 1) q

/-- The first layer's output, from the launch contents: layer 1 of the 64-channel aggregate of `x` and `x`. -/
def H (c : Dev nD) : Vec Ideal S50000x128 .f32 :=
  layer1 (agg64 (m ((c : Thread nD τ).loc main_arg0)) (srcIds (m ((c : Thread nD τ).loc main_arg1))) (dstIds (m ((c : Thread nD τ).loc main_arg1)))) (m ((c : Thread nD τ).loc main_arg0)) (m ((c : Thread nD τ).loc main_arg2))
    (m ((c : Thread nD τ).loc main_arg3)) (m ((c : Thread nD τ).loc main_arg4)) (m ((c : Thread nD τ).loc main_arg5))

theorem G0_eq (c : Dev nD) : Region0.G (V1 m ρ) c = H m c := by
  show layer1 (W1 m ρ c (Proc.devRef .tc main_v13)) (W1 m ρ c (Proc.devRef .tc main_arg0)) (W1 m ρ c (Proc.devRef .tc main_arg2))
    (Region0.rowOf (W1 m ρ c (Proc.devRef .tc main_v14))) (W1 m ρ c (Proc.devRef .tc main_arg4)) (Region0.rowOf (W1 m ρ c (Proc.devRef .tc main_v15))) = _
  rw [W1_v13, W1_arg0, W1_arg2, W1_v14, W1_arg4, W1_v15, rowOf0_reshape, rowOf0_reshape]
  rfl

/-! ## Between the regions -/

theorem W2_v16 (c : Dev nD) : W2 m ρ c (Proc.devRef .tc main_v16) = H m c :=
  (W2_arr m ρ c 6).trans ((Region0.final (V1 m ρ) c).trans (G0_eq m ρ c))
theorem W2_v1 (c : Dev nD) : W2 m ρ c (Proc.devRef .tc main_v1) = srcIds (m ((c : Thread nD τ).loc main_arg1)) :=
  (W2_of_ne m ρ c main_v1 (by decide)).trans (W1_v1 m ρ c)
theorem W2_v3 (c : Dev nD) : W2 m ρ c (Proc.devRef .tc main_v3) = dstIds (m ((c : Thread nD τ).loc main_arg1)) :=
  (W2_of_ne m ρ c main_v3 (by decide)).trans (W1_v3 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)
theorem W2_arg8 (c : Dev nD) : W2 m ρ c (Proc.devRef .tc main_arg8) = (m ((c : Thread nD τ).loc main_arg8)) :=
  (W2_of_ne m ρ c main_arg8 (by decide)).trans (W1_arg8 m ρ c)
theorem W2_arg9 (c : Dev nD) : W2 m ρ c (Proc.devRef .tc main_arg9) = (m ((c : Thread nD τ).loc main_arg9)) :=
  (W2_of_ne m ρ c main_arg9 (by decide)).trans (W1_arg9 m ρ c)

/-! ## What the second region finds -/

theorem W3_v26 (c : Dev nD) : W3 m ρ c (Proc.devRef .tc main_v26)
    = agg128 (H m c) (srcIds (m ((c : Thread nD τ).loc main_arg1))) (dstIds (m ((c : Thread nD τ).loc main_arg1))) := by
  show StableHlo.after hostOps1 (W2 m ρ c) (Proc.devRef .tc main_v26) = _
  after_results
  rw [W2_v16, W2_v1, W2_v3]
  rfl
theorem W3_v16 (c : Dev nD) : W3 m ρ c (Proc.devRef .tc main_v16) = H m c := by
  show StableHlo.after hostOps1 (W2 m ρ c) (Proc.devRef .tc main_v16) = _
  after_results
  exact W2_v16 m ρ c
theorem W3_arg6 (c : Dev nD) : W3 m ρ c (Proc.devRef .tc main_arg6) = (m ((c : Thread nD τ).loc main_arg6)) := by
  show StableHlo.after hostOps1 (W2 m ρ c) (Proc.devRef .tc main_arg6) = _
  after_results
  exact W2_arg6 m ρ c
theorem W3_arg8 (c : Dev nD) : W3 m ρ c (Proc.devRef .tc main_arg8) = (m ((c : Thread nD τ).loc main_arg8)) := by
  show StableHlo.after hostOps1 (W2 m ρ c) (Proc.devRef .tc main_arg8) = _
  after_results
  exact W2_arg8 m ρ c
theorem W3_v27 (c : Dev nD) : W3 m ρ c (Proc.devRef .tc main_v27) = shapeCast _ (m ((c : Thread nD τ).loc main_arg7)) shapeCasts_S128_S1x128 := by
  show StableHlo.after hostOps1 (W2 m ρ c) (Proc.devRef .tc main_v27) = _
  after_results
  rw [W2_arg7]
  rfl
theorem W3_v28 (c : Dev nD) : W3 m ρ c (Proc.devRef .tc main_v28) = shapeCast _ (m ((c : Thread nD τ).loc main_arg9)) shapeCasts_S128_S1x128 := by
  show StableHlo.after hostOps1 (W2 m ρ c) (Proc.devRef .tc main_v28) = _
  after_results
  rw [W2_arg9]
  rfl

/-- The kernel's result, from the launch contents: layer 2 of the 128-channel aggregate of the first layer's output, and
    that output. -/
def Out (c : Dev nD) : Vec Ideal S50000x128 .f32 :=
  layer2 (agg128 (H m c) (srcIds (m ((c : Thread nD τ).loc main_arg1))) (dstIds (m ((c : Thread nD τ).loc main_arg1)))) (H m c) (m ((c : Thread nD τ).loc main_arg6))
    (m ((c : Thread nD τ).loc main_arg7)) (m ((c : Thread nD τ).loc main_arg8)) (m ((c : Thread nD τ).loc main_arg9))

theorem G1_eq (c : Dev nD) : Region1.G (V3 m ρ) c = Out m c := by
  show layer2 (W3 m ρ c (Proc.devRef .tc main_v26)) (W3 m ρ c (Proc.devRef .tc main_v16)) (W3 m ρ c (Proc.devRef .tc main_arg6))
    (Region1.rowOf (W3 m ρ c (Proc.devRef .tc main_v27))) (W3 m ρ c (Proc.devRef .tc main_arg8)) (Region1.rowOf (W3 m ρ c (Proc.devRef .tc main_v28))) = _
  rw [W3_v26, W3_v16, W3_arg6, W3_v27, W3_arg8, W3_v28, rowOf1_reshape, rowOf1_reshape]
  rfl

/-- The result buffer's contents at the end of the run. -/
theorem result_eq (c : Dev nD) : W4 m ρ c (Proc.devRef .tc main_v29) = Out m c :=
  (W4_arr m ρ c 6).trans ((Region1.final (V3 m ρ) c).trans (G1_eq m ρ c))

end Cert.KernelIdeal.Fold

end
-- ==== Proof.RefValue.lean ====
/-
  The reference, stage by stage, is the two layers of `Cert.Gin` over the neighbour aggregates.

  The aggregate of a feature array `h` along the edge list is the reference's own chain of host operations (split the
  edge list into sources and targets, wrap negative sources, gather the source rows, scatter-add them at the targets
  into zeros); it is carried here as one function of `h` and the edge list and never opened. Between two aggregates
  the reference applies a perceptron row by row: each matrix product read at an entry is a sum over the contracted
  channel, each bias is spread over the rows, `relu` is the maximum with zero.
-/
import proofs.«105475_j18940805775883_1_alg».proof.Proof.Gen.ReferenceIdeal.Read
import proofs.«105475_j18940805775883_1_alg».proof.Proof.Spec

noncomputable section

namespace Cert.ReferenceIdeal.RefValue

open Cert.ReferenceIdeal Cert.ReferenceIdeal.Read Cert.Gin
open Idealize.ShloMosaic Idealize.ShloMosaic.ValueIdx Idealize.ShloMosaic.TcCoe Idealize.SL.Sem
open scoped BigOperators

/-! ## The aggregates -/

/-- The sum over incoming edges of the 64-channel source rows, one row per target node. -/
def agg64 (x : (⟨S50000x64, .f32⟩ : BufTy).Contents (Elt Ideal)) (ei : (⟨S2x800000, .i32⟩ : BufTy).Contents (Elt Ideal)) : (⟨S50000x64, .f32⟩ : BufTy).Contents (Elt Ideal) :=
  val_main_v13 (F := Ideal) x ei

/-- The same for 128-channel rows. -/
def agg128 (h : (⟨S50000x128, .f32⟩ : BufTy).Contents (Elt Ideal)) (ei : (⟨S2x800000, .i32⟩ : BufTy).Contents (Elt Ideal)) : (⟨S50000x128, .f32⟩ : BufTy).Contents (Elt Ideal) :=
  Host.scatterAdd (F := Ideal) (φ := .f32) scatter_S50000x128_S800000x1_S800000x128_1_0_0_1 (val_main_v32 (F := Ideal)) (val_main_v33 (F := Ideal) ei)
    (Host.gather gather_S50000x128_S800000x1_S800000x128_1_0_n_n_0_1_1128 h (val_main_v30 (F := Ideal) ei))

/-! ## The stages' index maps, by coordinates -/

theorem lidx_main_v15_eq (r : Fin 50000) (q : Fin 128) (k : Fin 64) : lidx_main_v15 (ix2 r q) k = ix2 r k :=
  funext fun a => Fin.ext (by match a with | ⟨0, _⟩ => rfl | ⟨1, _⟩ => rfl)
theorem ridx_main_v15_eq (r : Fin 50000) (q : Fin 128) (k : Fin 64) : ridx_main_v15 (ix2 r q) k = ix2 k q :=
  funext fun a => Fin.ext (by match a with | ⟨0, _⟩ => rfl | ⟨1, _⟩ => rfl)
theorem lidx_main_v20_eq (r : Fin 50000) (q : Fin 128) (k : Fin 128) : lidx_main_v20 (ix2 r q) k = ix2 r k :=
  funext fun a => Fin.ext (by match a with | ⟨0, _⟩ => rfl | ⟨1, _⟩ => rfl)
theorem ridx_main_v20_eq (r : Fin 50000) (q : Fin 128) (k : Fin 128) : ridx_main_v20 (ix2 r q) k = ix2 k q :=
  funext fun a => Fin.ext (by match a with | ⟨0, _⟩ => rfl | ⟨1, _⟩ => rfl)
theorem lidx_main_v36_eq (r : Fin 50000) (q : Fin 128) (k : Fin 128) : lidx_main_v36 (ix2 r q) k = ix2 r k :=
  funext fun a => Fin.ext (by match a with | ⟨0, _⟩ => rfl | ⟨1, _⟩ => rfl)
theorem ridx_main_v36_eq (r : Fin 50000) (q : Fin 128) (k : Fin 128) : ridx_main_v36 (ix2 r q) k = ix2 k q :=
  funext fun a => Fin.ext (by match a with | ⟨0, _⟩ => rfl | ⟨1, _⟩ => rfl)
theorem lidx_main_v41_eq (r : Fin 50000) (q : Fin 128) (k : Fin 128) : lidx_main_v41 (ix2 r q) k = ix2 r k :=
  funext fun a => Fin.ext (by match a with | ⟨0, _⟩ => rfl | ⟨1, _⟩ => rfl)
theorem ridx_main_v41_eq (r : Fin 50000) (q : Fin 128) (k : Fin 128) : ridx_main_v41 (ix2 r q) k = ix2 k q :=
  funext fun a => Fin.ext (by match a with | ⟨0, _⟩ => rfl | ⟨1, _⟩ => rfl)
theorem idx_main_v17_eq (r : Fin 50000) (q : Fin 128) : idx_main_v17 (ix2 r q) = ix2 (0 : Fin 1) q :=
  funext fun a => Fin.ext (by match a with | ⟨0, _⟩ => rfl | ⟨1, _⟩ => rfl)
theorem idx_main_v22_eq (r : Fin 50000) (q : Fin 128) : idx_main_v22 (ix2 r q) = ix2 (0 : Fin 1) q :=
  funext fun a => Fin.ext (by match a with | ⟨0, _⟩ => rfl | ⟨1, _⟩ => rfl)
theorem idx_main_v38_eq (r : Fin 50000) (q : Fin 128) : idx_main_v38 (ix2 r q) = ix2 (0 : Fin 1) q :=
  funext fun a => Fin.ext (by match a with | ⟨0, _⟩ => rfl | ⟨1, _⟩ => rfl)
theorem idx_main_v43_eq (r : Fin 50000) (q : Fin 128) : idx_main_v43 (ix2 r q) = ix2 (0 : Fin 1) q :=
  funext fun a => Fin.ext (by match a with | ⟨0, _⟩ => rfl | ⟨1, _⟩ => rfl)
theorem idx_main_v16_eq (u : Fin 1) (q : Fin 128) : idx_main_v16 (ix2 u q) = ix1 q :=
  funext fun a => Fin.ext (by match a with | ⟨0, _⟩ => rfl)
theorem idx_main_v21_eq (u : Fin 1) (q : Fin 128) : idx_main_v21 (ix2 u q) = ix1 q :=
  funext fun a => Fin.ext (by match a with | ⟨0, _⟩ => rfl)
theorem idx_main_v37_eq (u : Fin 1) (q : Fin 128) : idx_main_v37 (ix2 u q) = ix1 q :=
  funext fun a => Fin.ext (by match a with | ⟨0, _⟩ => rfl)
theorem idx_main_v42_eq (u : Fin 1) (q : Fin 128) : idx_main_v42 (ix2 u q) = ix1 q :=
  funext fun a => Fin.ext (by match a with | ⟨0, _⟩ => rfl)

/-! ## The two layers -/

/-- The first layer's hidden activations at node `r`, channel `k`. -/
theorem hidden1_apply (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal))
    (r : Fin 50000) (k : Fin 128) :
    val_main_v19 (F := Ideal) x0 x1 x2 x3 (ix2 r k)
      = hiddenAct (fun k₁ => (agg64 x0 x1 (ix2 r k₁) : EReal) + x0 (ix2 r k₁)) (fun k₁ k₂ => x2 (ix2 k₁ k₂)) (fun k => x3 (ix1 k)) k := by
  rw [val_main_v19_apply, val_main_v18_apply, val_main_v15_apply, val_main_v17_apply, val_main_v16_apply,
    val_main_call0_v0_apply, val_main_call0_cst_apply, idx_main_v17_eq, idx_main_v16_eq]
  unfold hiddenAct
  show max ((∑ k₁ : Fin 64, val_main_v14 (F := Ideal) x0 x1 (lidx_main_v15 (ix2 r k) k₁) * x2 (ridx_main_v15 (ix2 r k) k₁)) + x3 (ix1 k))
    (Ideal.ofBits .f32 0x00000000#32) = _
  rw [Ideal.ofBits_zero_f32]
  refine congrArg (fun s => max (s + x3 (ix1 k)) 0) (Finset.sum_congr rfl fun k₁ _ => ?_)
  rw [lidx_main_v15_eq, ridx_main_v15_eq, val_main_v14_apply]
  rfl

/-- The first layer's output (after its `relu`) is `layer1` of the 64-channel aggregate and the inputs. -/
theorem layer1_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v24 (F := Ideal) x0 x1 x2 x3 x4 x5 = layer1 (agg64 x0 x1) x0 x2 x3 x4 x5 := by
  funext i
  obtain ⟨r, q, rfl⟩ : ∃ (r : Fin 50000) (q : Fin 128), i = ix2 r q := ⟨i 0, i 1, eq_ix2 i⟩
  rw [val_main_v24_apply, val_main_v23_apply, val_main_v20_apply, val_main_v22_apply, val_main_v21_apply,
    val_main_call1_v0_apply, val_main_call1_cst_apply, idx_main_v22_eq, idx_main_v21_eq]
  unfold layer1 mlpOut
  show max ((∑ k : Fin 128, val_main_v19 (F := Ideal) x0 x1 x2 x3 (lidx_main_v20 (ix2 r q) k) * x4 (ridx_main_v20 (ix2 r q) k)) + x5 (ix1 q))
    (Ideal.ofBits .f32 0x00000000#32) = _
  rw [Ideal.ofBits_zero_f32]
  refine congrArg (fun s => max (s + x5 (ix1 q)) 0) (Finset.sum_congr rfl fun k _ => ?_)
  rw [lidx_main_v20_eq, ridx_main_v20_eq]
  exact congrArg (· * x4 (ix2 k q)) (hidden1_apply x0 x1 x2 x3 r k)

/-- The second aggregate is the 128-channel aggregate of the first layer's output. -/
theorem agg2_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v34 (F := Ideal) x0 x1 x2 x3 x4 x5 = agg128 (val_main_v24 (F := Ideal) x0 x1 x2 x3 x4 x5) x1 := rfl

/-- The second layer's hidden activations at node `r`, channel `k`. -/
theorem hidden2_apply (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (r : Fin 50000) (k : Fin 128) :
    val_main_v40 (F := Ideal) x0 x1 x2 x3 x4 x5 x6 x7 (ix2 r k)
      = hiddenAct (fun k₁ => (agg128 (val_main_v24 (F := Ideal) x0 x1 x2 x3 x4 x5) x1 (ix2 r k₁) : EReal) + val_main_v24 (F := Ideal) x0 x1 x2 x3 x4 x5 (ix2 r k₁))
          (fun k₁ k₂ => x6 (ix2 k₁ k₂)) (fun k => x7 (ix1 k)) k := by
  rw [val_main_v40_apply, val_main_v39_apply, val_main_v36_apply, val_main_v38_apply, val_main_v37_apply,
    val_main_call2_v0_apply, val_main_call2_cst_apply, idx_main_v38_eq, idx_main_v37_eq]
  unfold hiddenAct
  show max ((∑ k₁ : Fin 128, val_main_v35 (F := Ideal) x0 x1 x2 x3 x4 x5 (lidx_main_v36 (ix2 r k) k₁) * x6 (ridx_main_v36 (ix2 r k) k₁)) + x7 (ix1 k))
    (Ideal.ofBits .f32 0x00000000#32) = _
  rw [Ideal.ofBits_zero_f32]
  refine congrArg (fun s => max (s + x7 (ix1 k)) 0) (Finset.sum_congr rfl fun k₁ _ => ?_)
  rw [lidx_main_v36_eq, ridx_main_v36_eq, val_main_v35_apply, agg2_eq]
  rfl

/-- The reference's result is `layer2` of the 128-channel aggregate of the first layer's output, and that output. -/
theorem layer2_eq (x0 : (⟨S50000x64, .f32⟩ : BufTy).Contents (Elt Ideal)) (x1 : (⟨S2x800000, .i32⟩ : BufTy).Contents (Elt Ideal)) (x2 : (⟨S64x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v44 (F := Ideal) x0 x1 x2 x3 x4 x5 x6 x7 x8 x9
      = layer2 (agg128 (val_main_v24 (F := Ideal) x0 x1 x2 x3 x4 x5) x1) (val_main_v24 (F := Ideal) x0 x1 x2 x3 x4 x5) x6 x7 x8 x9 := by
  funext i
  obtain ⟨r, q, rfl⟩ : ∃ (r : Fin 50000) (q : Fin 128), i = ix2 r q := ⟨i 0, i 1, eq_ix2 i⟩
  rw [val_main_v44_apply, val_main_v41_apply, val_main_v43_apply, val_main_v42_apply, idx_main_v43_eq, idx_main_v42_eq]
  unfold layer2 mlpOut
  show (∑ k : Fin 128, val_main_v40 (F := Ideal) x0 x1 x2 x3 x4 x5 x6 x7 (lidx_main_v41 (ix2 r q) k) * x8 (ridx_main_v41 (ix2 r q) k)) + x9 (ix1 q) = _
  refine congrArg (fun s => s + x9 (ix1 q)) (Finset.sum_congr rfl fun k _ => ?_)
  rw [lidx_main_v41_eq, ridx_main_v41_eq]
  exact congrArg (· * x8 (ix2 k q)) (hidden2_apply x0 x1 x2 x3 x4 x5 x6 x7 r k)

/-- The reference's result, from the launch contents of its arguments. -/
theorem result_eq (m : (ℓ : Loc nD τ sig) → Buf (Elt Ideal) ℓ) (c : Dev nD) :
    Cert.ReferenceIdeal.Value.res_main_v44 m c
      = layer2 (agg128 (layer1 (agg64 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg1)))
          (layer1 (agg64 (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)))
          (m ((c.tc : Thread nD τ).loc main_arg6)) (m ((c.tc : Thread nD τ).loc main_arg7)) (m ((c.tc : Thread nD τ).loc main_arg8)) (m ((c.tc : Thread nD τ).loc main_arg9)) := by
  rw [val_main_v44_eq, layer2_eq, layer1_eq]

end Cert.ReferenceIdeal.RefValue

end
-- ==== Proof.lean ====
/-
  Two graph-isomorphism layers against their jnp reference, over the extended reals.

  Both programs build, for a feature array `h` and an edge list, the neighbour aggregate `agg h` (gather the source
  rows, scatter-add them at the targets) with the same host operations, and apply to `z = agg h + h` a two-layer
  perceptron row by row: `relu (z · Wa + ba) · Wb + bb`, the first layer followed by one more `relu`. The kernel program
  computes each perceptron in a region that walks the 50000 nodes in ten tiles of 5000 rows, its matrix products on
  the matrix unit into a zero accumulator; the reference computes it with whole-array products on the host. At the
  ideal values a matrix product read at an entry is the sum over the contracted channel of the operands' products on
  either side, a change of float format is the identity, and `relu` is the maximum with zero, so each region's output
  array is the same function `layer1` / `layer2` (`Cert.Gin`) of the arrays it finds as the reference's stages are of
  theirs, entry by entry, with no algebra beyond reading both sides at an index. The aggregates are carried as one
  function on both sides and never opened, so the edge list may hold any indices.

  The frames of the two kernel programs are the generated ones; the reference's is its generated run with the result
  dropped. The idealization rewrote nothing, so `preserves` asks nothing.
-/
import proofs.«105475_j18940805775883_1_alg».proof.Defs
import proofs.«105475_j18940805775883_1_alg».proof.Proof.Gen.Kernel
import proofs.«105475_j18940805775883_1_alg».proof.Proof.Gen.Kernel.Skeleton
import proofs.«105475_j18940805775883_1_alg».proof.Proof.Gen.Kernel.Launch
import proofs.«105475_j18940805775883_1_alg».proof.Proof.Gen.Kernel.Points
import proofs.«105475_j18940805775883_1_alg».proof.Proof.Gen.Kernel.Frame
import proofs.«105475_j18940805775883_1_alg».proof.Proof.Gen.KernelIdeal
import proofs.«105475_j18940805775883_1_alg».proof.Proof.Gen.KernelIdeal.Skeleton
import proofs.«105475_j18940805775883_1_alg».proof.Proof.Gen.KernelIdeal.Launch
import proofs.«105475_j18940805775883_1_alg».proof.Proof.Gen.KernelIdeal.Points
import proofs.«105475_j18940805775883_1_alg».proof.Proof.Gen.KernelIdeal.Frame
import proofs.«105475_j18940805775883_1_alg».proof.Proof.Gen.ReferenceIdeal
import proofs.«105475_j18940805775883_1_alg».proof.Proof.Gen.ReferenceIdeal.Run
import proofs.«105475_j18940805775883_1_alg».proof.Proof.Gen.ReferenceIdeal.Read
import proofs.«105475_j18940805775883_1_alg».proof.Proof.Gen.Pre_finite_inputs
import proofs.«105475_j18940805775883_1_alg».proof.Proof.KernelRun
import proofs.«105475_j18940805775883_1_alg».proof.Proof.KernelFold
import proofs.«105475_j18940805775883_1_alg».proof.Proof.RefValue
import Idealize.ShloMosaic.Adequacy
import Idealize.ShloMosaic.Init

noncomputable section

namespace Cert.Proof

open Idealize.ShloMosaic Idealize.ShloMosaic.TcCoe Idealize.SL.Sem

/-! ## The two programs' aggregates are one function -/

/-- The 64-channel aggregate: the kernel program's chain of host operations is the reference's. -/
theorem agg64_same (x : (⟨Cert.KernelIdeal.S50000x64, .f32⟩ : BufTy).Contents (Elt Ideal)) (ei : (⟨Cert.KernelIdeal.S2x800000, .i32⟩ : BufTy).Contents (Elt Ideal)) :
    Cert.KernelIdeal.Fold.agg64 x (Cert.KernelIdeal.Fold.srcIds ei) (Cert.KernelIdeal.Fold.dstIds ei) = Cert.ReferenceIdeal.RefValue.agg64 x ei := rfl

/-- The 128-channel aggregate likewise. -/
theorem agg128_same (h : (⟨Cert.KernelIdeal.S50000x128, .f32⟩ : BufTy).Contents (Elt Ideal)) (ei : (⟨Cert.KernelIdeal.S2x800000, .i32⟩ : BufTy).Contents (Elt Ideal)) :
    Cert.KernelIdeal.Fold.agg128 h (Cert.KernelIdeal.Fold.srcIds ei) (Cert.KernelIdeal.Fold.dstIds ei) = Cert.ReferenceIdeal.RefValue.agg128 h ei := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `layer2 (agg₁₂₈ H) H …`, `H = layer1 (agg₆₄ x) x …`, of arguments that agree. -/
theorem algebraic : Cert.algebraic_KernelIdeal_ReferenceIdeal := by
  intro m ρ m' ρ' _ hagree
  refine ⟨fun c => Cert.KernelIdeal.Fold.Out m c, ?_, ?_⟩
  · exact (θ_run Cert.KernelIdeal.defs _ _).mono
      (fun r h c => ⟨(h c).1.trans (Cert.KernelIdeal.Fold.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.RefValue.result_eq, a0, a1, a2, a3, a4, a5, a6, a7, a8, a9]
    show _ = Cert.KernelIdeal.Fold.Out m c
    unfold Cert.KernelIdeal.Fold.Out Cert.KernelIdeal.Fold.H
    rw [agg64_same, agg128_same]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
